-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8192x128 .f32) (main_arg1 : FVec F S8192x8192 .f32) (main_arg2 : FVec F S128x128 .f32) (main_arg3 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S1x128 : Shape := ⟨2, ![1, 128]⟩
abbrev S512x2048 : Shape := ⟨2, ![512, 2048]⟩
abbrev S2048x128 : Shape := ⟨2, ![2048, 128]⟩
abbrev S512x128 : Shape := ⟨2, ![512, 128]⟩
abbrev S512x1 : Shape := ⟨2, ![512, 1]⟩
abbrev S512 : Shape := ⟨1, ![512]⟩

abbrev nBuf : Space → Nat
  | .hbm => 6
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S2048x128, .f32⟩
  | .local _ .vmem, ⟨3, _⟩ => ⟨S2048x128, .f32⟩
  | .local _ .vmem, ⟨4, _⟩ => ⟨S128x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_13 : BitVec 32 := 0#32
  let v20 : BitVec 1 := Scalar.cmpi .ne v19 c0_i32_13
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S128_S1x128 : S128.ShapeCasts S1x128
  inb_S512x2048_S512x2048_0_0 : ∀ a, (![0, 0] : Fin 2 → Nat) a + S512x2048.size a ≤ S512x2048.size a
  h_S512x2048 : 0 < S512x2048.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2048x128_S2048x128_0_0 : ∀ a, (![0, 0] : Fin 2 → Nat) a + S2048x128.size a ≤ S2048x128.size a
  h_S2048x128 : 0 < S2048x128.numel
  reduces_S512x2048_S512 : S512x2048.Reduces [1] S512
  shapeCasts_S512_S512x1 : S512.ShapeCasts S512x1
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S512x1_S512x128 : S512x1.Broadcasts S512x128
  broadcasts_S1x128_S512x128 : S1x128.Broadcasts S512x128
  dot_S512x2048_S2048x128_S512x128_1_0_0_1_n_n_wf : DotDims.WF S512x2048 S2048x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x8192.size a
  hwx0_0 : ∀ i : grid0.Coords, EltTy.bits .f32 = 32 ∨ (Rect.block (s := S8192x8192) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .f32 = 32 ∨ (Rect.block (s := S8192x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S8192x128.size a
  hwx0_4 : ∀ i : grid0.Coords, EltTy.bits .f32 = 32 ∨ (Rect.block (s := S8192x128) S512x128.size (cc0_transform_4 i) (hinb0_4 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S1x128 : Shape := ⟨2, ![1, 128]⟩
abbrev S_ : Shape := ⟨0, ![]⟩
abbrev S8192 : Shape := ⟨1, ![8192]⟩
abbrev S8192x1 : Shape := ⟨2, ![8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S8192x128, .f32⟩
  | .hbm, ⟨6, _⟩ => ⟨S1x128, .f32⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x128, .f32⟩
  | .hbm, ⟨17, _⟩ => ⟨S8192x128, .f32⟩
  | .hbm, ⟨18, _⟩ => ⟨S_, .f32⟩
  | .hbm, ⟨19, _⟩ => ⟨S8192x128, .f32⟩
  | .hbm, ⟨20, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_cst : Ref sig .tc := ⟨.hbm, 18, rfl⟩
abbrev main_call0_v0 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S_S8192x128 : S_.BroadcastsInDim S8192x128 (![] : Fin 0 → Fin S8192x128.rank)
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.SagePieces.lean ====
/-
  What one grid step leaves behind, as values.

  The kernel walks a 16 × 4 grid: 16 blocks of 512 rows of the adjacency matrix, and for each of them 4 blocks
  of 2048 columns. Two buffers are carried from step to step: the accumulator (512 × 128), which collects
  the product of the row block of the adjacency matrix with the features, and the degree column (512 × 1), which
  collects the row sums. A step is of one of three kinds.
    first column block  : both buffers are cleared, then the step's contribution is added;
    middle column blocks: the step's contribution is added to what the step before left;
    last column block   : the same, and then the output block is formed from the two finished buffers.
  Each lemma below says which pure function of the step's input blocks (and, after the first step, of what the
  step before left) a buffer holds when the step ends. The buffers are stored whole by every step, so what is
  read back is exactly the value last stored; in the first step the read that follows the clearing store
  sees the cleared buffer, and in the last step the closing reads see the buffers the same step has just updated.
-/
import proofs.«118977_g43241730737058_cont_9to1c4_547_6_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First column block, accumulator: cleared, then the block product added to the cleared buffer. -/
theorem acc_first (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1 .f32) (harg8 : arg8.IsWhole) (hc0 : cond0_0 i) (hc1 : ¬cond0_1 i) (x0 : Vec F S512x2048 .f32) (x1 : Vec F S2048x128 .f32) (x2 : Vec F S128x128 .f32) (x3 : Vec F S1x128 .f32) :
    sout0_A_0 c i arg2 harg2 arg3 harg3 arg4 harg4 arg5 harg5 arg6 harg6 arg7 harg7 arg8 harg8 hc0 hc1 x0 x1 x2 x3 = k0_pay3 x0 (k0_pay1 (F := F)) x1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S512x128) hz]
  simp only [View.readAt_eq_ld, harg2.read_unread, harg3.read_unread, harg4.read_unread, harg5.read_unread, harg6.read_unread, harg7.read_unread, harg8.read_unread, View.ld_unit_zero (S := S512x2048) hz, View.ld_unit_zero (S := S2048x128) hz, View.ld_unit_zero (S := S128x128) hz, View.ld_unit_zero (S := S1x128) hz, View.ld_unit_zero (S := S512x128) hz, View.ld_unit_zero (S := S512x1) hz, View.readCov_unit_zero (S := S512x128) _ hz, View.readCov_unit_zero (S := S512x1) _ hz]

/-- First column block, degree column: cleared, then the block's row sums added to the cleared buffer. -/
theorem deg_first (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1 .f32) (harg8 : arg8.IsWhole) (hc0 : cond0_0 i) (hc1 : ¬cond0_1 i) (x0 : Vec F S512x2048 .f32) (x1 : Vec F S2048x128 .f32) (x2 : Vec F S128x128 .f32) (x3 : Vec F S1x128 .f32) :
    sout0_A_1 c i arg2 harg2 arg3 harg3 arg4 harg4 arg5 harg5 arg6 harg6 arg7 harg7 arg8 harg8 hc0 hc1 x0 x1 x2 x3 = k0_pay4 x0 (k0_pay2 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S512x1) hz]
  simp only [View.readAt_eq_ld, harg2.read_unread, harg3.read_unread, harg4.read_unread, harg5.read_unread, harg6.read_unread, harg7.read_unread, harg8.read_unread, View.ld_unit_zero (S := S512x2048) hz, View.ld_unit_zero (S := S2048x128) hz, View.ld_unit_zero (S := S128x128) hz, View.ld_unit_zero (S := S1x128) hz, View.ld_unit_zero (S := S512x128) hz, View.ld_unit_zero (S := S512x1) hz, View.readCov_unit_zero (S := S512x128) _ hz, View.readCov_unit_zero (S := S512x1) _ hz]

/-- A middle column block, accumulator: the block product added to what the step before left. -/
theorem acc_middle (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1 .f32) (harg8 : arg8.IsWhole) (hc0 : ¬cond0_0 i) (hc1 : ¬cond0_1 i) (x0 : Vec F S512x2048 .f32) (x1 : Vec F S2048x128 .f32) (x2 : Vec F S128x128 .f32) (x3 : Vec F S1x128 .f32) (xs0 : Vec F S512x128 .f32) (xs1 : Vec F S512x1 .f32) :
    sout0_B_0 c i arg2 harg2 arg3 harg3 arg4 harg4 arg5 harg5 arg6 harg6 arg7 harg7 arg8 harg8 hc0 hc1 x0 x1 x2 x3 xs0 xs1 = k0_pay3 x0 xs0 x1 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x2048) hz, View.ld_unit_zero (S := S2048x128) hz, View.ld_unit_zero (S := S128x128) hz, View.ld_unit_zero (S := S1x128) hz, View.ld_unit_zero (S := S512x128) hz, View.ld_unit_zero (S := S512x1) hz, View.readCov_unit_zero (S := S512x128) _ hz, View.readCov_unit_zero (S := S512x1) _ hz]

/-- A middle column block, degree column: the block's row sums added to what the step before left. -/
theorem deg_middle (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1 .f32) (harg8 : arg8.IsWhole) (hc0 : ¬cond0_0 i) (hc1 : ¬cond0_1 i) (x0 : Vec F S512x2048 .f32) (x1 : Vec F S2048x128 .f32) (x2 : Vec F S128x128 .f32) (x3 : Vec F S1x128 .f32) (xs0 : Vec F S512x128 .f32) (xs1 : Vec F S512x1 .f32) :
    sout0_B_1 c i arg2 harg2 arg3 harg3 arg4 harg4 arg5 harg5 arg6 harg6 arg7 harg7 arg8 harg8 hc0 hc1 x0 x1 x2 x3 xs0 xs1 = k0_pay4 x0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x2048) hz, View.ld_unit_zero (S := S2048x128) hz, View.ld_unit_zero (S := S128x128) hz, View.ld_unit_zero (S := S1x128) hz, View.ld_unit_zero (S := S512x128) hz, View.ld_unit_zero (S := S512x1) hz, View.readCov_unit_zero (S := S512x128) _ hz, View.readCov_unit_zero (S := S512x1) _ hz]

/-- The last column block, accumulator: as in a middle step. -/
theorem acc_last (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1 .f32) (harg8 : arg8.IsWhole) (hc0 : ¬cond0_0 i) (hc1 : cond0_1 i) (x0 : Vec F S512x2048 .f32) (x1 : Vec F S2048x128 .f32) (x2 : Vec F S128x128 .f32) (x3 : Vec F S1x128 .f32) (xs0 : Vec F S512x128 .f32) (xs1 : Vec F S512x1 .f32) :
    sout0_C_0 c i arg2 harg2 arg3 harg3 arg4 harg4 arg5 harg5 arg6 harg6 arg7 harg7 arg8 harg8 hc0 hc1 x0 x1 x2 x3 xs0 xs1 = k0_pay3 x0 xs0 x1 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x2048) hz, View.ld_unit_zero (S := S2048x128) hz, View.ld_unit_zero (S := S128x128) hz, View.ld_unit_zero (S := S1x128) hz, View.ld_unit_zero (S := S512x128) hz, View.ld_unit_zero (S := S512x1) hz, View.readCov_unit_zero (S := S512x128) _ hz, View.readCov_unit_zero (S := S512x1) _ hz]

/-- The last column block, degree column: as in a middle step. -/
theorem deg_last (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1 .f32) (harg8 : arg8.IsWhole) (hc0 : ¬cond0_0 i) (hc1 : cond0_1 i) (x0 : Vec F S512x2048 .f32) (x1 : Vec F S2048x128 .f32) (x2 : Vec F S128x128 .f32) (x3 : Vec F S1x128 .f32) (xs0 : Vec F S512x128 .f32) (xs1 : Vec F S512x1 .f32) :
    sout0_C_1 c i arg2 harg2 arg3 harg3 arg4 harg4 arg5 harg5 arg6 harg6 arg7 harg7 arg8 harg8 hc0 hc1 x0 x1 x2 x3 xs0 xs1 = k0_pay4 x0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x2048) hz, View.ld_unit_zero (S := S2048x128) hz, View.ld_unit_zero (S := S128x128) hz, View.ld_unit_zero (S := S1x128) hz, View.ld_unit_zero (S := S512x128) hz, View.ld_unit_zero (S := S512x1) hz, View.readCov_unit_zero (S := S512x128) _ hz, View.readCov_unit_zero (S := S512x1) _ hz]

/-- The last column block, output block: the closing formula of the finished accumulator, the weight matrix, the finished
    degree column and the bias row. -/
theorem out_last (c : Dev nD) (i : grid0.Coords) (arg2 : Memref sig .tc .vmem S512x2048 .f32) (harg2 : arg2.IsWhole) (arg3 : Memref sig .tc .vmem S2048x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1 .f32) (harg8 : arg8.IsWhole) (hc0 : ¬cond0_0 i) (hc1 : cond0_1 i) (x0 : Vec F S512x2048 .f32) (x1 : Vec F S2048x128 .f32) (x2 : Vec F S128x128 .f32) (x3 : Vec F S1x128 .f32) (xs0 : Vec F S512x128 .f32) (xs1 : Vec F S512x1 .f32) :
    out0_C_4 c i arg2 harg2 arg3 harg3 arg4 harg4 arg5 harg5 arg6 harg6 arg7 harg7 arg8 harg8 hc0 hc1 x0 x1 x2 x3 xs0 xs1 = k0_pay5 (k0_pay3 x0 xs0 x1) x2 (k0_pay4 x0 xs1) x3 := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x2048) hz, View.ld_unit_zero (S := S2048x128) hz, View.ld_unit_zero (S := S128x128) hz, View.ld_unit_zero (S := S1x128) hz, View.ld_unit_zero (S := S512x128) hz, View.ld_unit_zero (S := S512x1) hz, View.readCov_unit_zero (S := S512x128) _ hz, View.readCov_unit_zero (S := S512x1) _ hz]

end Cert.KernelIdeal.Pieces

end
-- ==== Proof.SagePayloads.lean ====
/-
  The arithmetic of one grid step, read entry by entry over the extended reals.

  Accumulator step: entry (r, d) of the new accumulator is the old entry plus ∑_j a(r, j) · x(j, d) over the 2048
  columns of the step's block of the adjacency matrix `a` and the matching 2048 rows of the feature block `x`
  (the matrix unit starts from a zero accumulator, so it contributes exactly that sum).
  Degree step: entry (r, 0) of the new degree column is the old entry plus ∑_j a(r, j), the block's row sum.
  Clearing: every entry of a cleared buffer is the float zero, which is the number 0.
  Closing formula: entry (r, o) of the output block is
      max( ( ∑_d acc(r, d) · W(o, d)  +  deg(r, 0) · b(0, o) ) / ( deg(r, 0) + ε ), 0 ),
  the product with the TRANSPOSED weight matrix read as a sum over the shared axis, the degree column and the bias
  row each stretched over the block, ε the float constant the kernel adds to the degree.
-/
import proofs.«118977_g43241730737058_cont_9to1c4_547_6_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.KernelIdeal.Payloads

open Cert.KernelIdeal Cert.KernelIdeal.Gen Idealize.ShloMosaic.ValueIdx

/-! ## The two matrix products as sums over the contracted axis

Which coordinate of each operand a product's index and the contracted index select: the left operand's row is the
result's row, the right operand's column is the result's column, and both share the contracted coordinate. -/

theorem lhsA_0 (i : S512x128.Idx) (q : dot_S512x2048_S2048x128_S512x128_1_0_0_1_n_n.contr.Idx) :
    (dot_S512x2048_S2048x128_S512x128_1_0_0_1_n_n.lhsIdx i q 0).val = (i 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem lhsA_1 (i : S512x128.Idx) (q : dot_S512x2048_S2048x128_S512x128_1_0_0_1_n_n.contr.Idx) :
    (dot_S512x2048_S2048x128_S512x128_1_0_0_1_n_n.lhsIdx i q 1).val = (q ⟨0, by decide⟩).val :=
  dot_S512x2048_S2048x128_S512x128_1_0_0_1_n_n.lhsIdx_val_of_single rfl i q
theorem rhsA_0 (i : S512x128.Idx) (q : dot_S512x2048_S2048x128_S512x128_1_0_0_1_n_n.contr.Idx) :
    (dot_S512x2048_S2048x128_S512x128_1_0_0_1_n_n.rhsIdx i q 0).val = (q ⟨0, by decide⟩).val :=
  dot_S512x2048_S2048x128_S512x128_1_0_0_1_n_n.rhsIdx_val_of_single rfl i q
theorem rhsA_1 (i : S512x128.Idx) (q : dot_S512x2048_S2048x128_S512x128_1_0_0_1_n_n.contr.Idx) :
    (dot_S512x2048_S2048x128_S512x128_1_0_0_1_n_n.rhsIdx i q 1).val = (i 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

theorem lhsB_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem lhsB_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem rhsB_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem rhsB_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- A row block of the adjacency matrix times a block of features, from a zero accumulator: entry (r, d) is ∑_j a(r, j) · x(j, d). -/
theorem blockProduct_apply (a : FVec Ideal S512x2048 .f32) (x : FVec Ideal S2048x128 .f32) (r : Fin 512) (d : Fin 128) :
    matmul dot_S512x2048_S2048x128_S512x128_1_0_0_1_n_n none a x (constant (F := Ideal) S512x128 .f32 0x00000000#32) (ix2 r d)
      = ∑ j : Fin 2048, a (ix2 r j) * x (ix2 j d) := by
  refine (Ideal.matmul_constant_zero_apply dot_S512x2048_S2048x128_S512x128_1_0_0_1_n_n none a x (ix2 r d)).trans ?_
  rw [← Equiv.sum_comp (ValueIdx.contrEquiv1 dot_S512x2048_S2048x128_S512x128_1_0_0_1_n_n 2048 rfl rfl).symm]
  refine Finset.sum_congr rfl fun k _ => ?_
  have hk := ValueIdx.contrEquiv1_symm_val dot_S512x2048_S2048x128_S512x128_1_0_0_1_n_n 2048 rfl rfl k
  have el : dot_S512x2048_S2048x128_S512x128_1_0_0_1_n_n.lhsIdx (ix2 r d) ((ValueIdx.contrEquiv1 dot_S512x2048_S2048x128_S512x128_1_0_0_1_n_n 2048 rfl rfl).symm k) = ix2 r k := funext fun ax => Fin.ext (by
    match ax with
    | ⟨0, _⟩ => exact lhsA_0 _ _
    | ⟨1, _⟩ => exact (lhsA_1 _ _).trans hk)
  have er : dot_S512x2048_S2048x128_S512x128_1_0_0_1_n_n.rhsIdx (ix2 r d) ((ValueIdx.contrEquiv1 dot_S512x2048_S2048x128_S512x128_1_0_0_1_n_n 2048 rfl rfl).symm k) = ix2 k d := funext fun ax => Fin.ext (by
    match ax with
    | ⟨0, _⟩ => exact (rhsA_0 _ _).trans hk
    | ⟨1, _⟩ => exact rhsA_1 _ _)
  rw [el, er]

/-- The accumulator times a 128 × 128 matrix, from a zero accumulator: entry (r, o) is ∑_d acc(r, d) · v(d, o). -/
theorem projection_apply (a : FVec Ideal S512x128 .f32) (x : FVec Ideal S128x128 .f32) (r : Fin 512) (d : Fin 128) :
    matmul dot_S512x128_S128x128_S512x128_1_0_0_1_n_n none a x (constant (F := Ideal) S512x128 .f32 0x00000000#32) (ix2 r d)
      = ∑ j : Fin 128, a (ix2 r j) * x (ix2 j d) := by
  refine (Ideal.matmul_constant_zero_apply dot_S512x128_S128x128_S512x128_1_0_0_1_n_n none a x (ix2 r d)).trans ?_
  rw [← Equiv.sum_comp (ValueIdx.contrEquiv1 dot_S512x128_S128x128_S512x128_1_0_0_1_n_n 128 rfl rfl).symm]
  refine Finset.sum_congr rfl fun k _ => ?_
  have hk := ValueIdx.contrEquiv1_symm_val dot_S512x128_S128x128_S512x128_1_0_0_1_n_n 128 rfl rfl k
  have el : dot_S512x128_S128x128_S512x128_1_0_0_1_n_n.lhsIdx (ix2 r d) ((ValueIdx.contrEquiv1 dot_S512x128_S128x128_S512x128_1_0_0_1_n_n 128 rfl rfl).symm k) = ix2 r k := funext fun ax => Fin.ext (by
    match ax with
    | ⟨0, _⟩ => exact lhsB_0 _ _
    | ⟨1, _⟩ => exact (lhsB_1 _ _).trans hk)
  have er : dot_S512x128_S128x128_S512x128_1_0_0_1_n_n.rhsIdx (ix2 r d) ((ValueIdx.contrEquiv1 dot_S512x128_S128x128_S512x128_1_0_0_1_n_n 128 rfl rfl).symm k) = ix2 k d := funext fun ax => Fin.ext (by
    match ax with
    | ⟨0, _⟩ => exact (rhsB_0 _ _).trans hk
    | ⟨1, _⟩ => exact rhsB_1 _ _)
  rw [el, er]

/-! ## The row sum of a block -/

/-- The sum of a 512 × 2048 block along its columns, at row r: ∑_j a(r, j). -/
theorem rowSum_apply (a : FVec Ideal S512x2048 .f32) (hφ : FKind.Formats .f32)
    (hacc : (0x00000000#32 : BitVec 32) = FKind.add.neutral .f32 hφ) (r : Fin 512) :
    multiReduction .add [1] S512 a 0x00000000#32 reduces_S512x2048_S512 hφ hacc (ix1 r) = ∑ j : Fin 2048, a (ix2 r j) := by
  refine (Ideal.multiReduction_add_single a 0x00000000#32 reduces_S512x2048_S512 hφ hacc (ix1 r)).trans ?_
  exact Finset.sum_congr rfl fun k _ => congrArg a (funext fun ax => Fin.ext (by
    match ax with
    | ⟨0, _⟩ => rfl
    | ⟨1, _⟩ => rfl))

/-! ## The stores' values, entry by entry -/

/-- A cleared accumulator holds 0 everywhere. -/
theorem clearedAcc_apply (i : S512x128.Idx) : (k0_pay1 (F := Ideal)) i = 0 := by
  unfold k0_pay1
  refine (congrFun (shapeCast_self _ _) i).trans ?_
  exact Ideal.ofBits_zero_f32

/-- A cleared degree column holds 0 everywhere. -/
theorem clearedDeg_apply (i : S512x1.Idx) : (k0_pay2 (F := Ideal)) i = 0 := by
  unfold k0_pay2
  refine (congrFun (shapeCast_self _ _) i).trans ?_
  exact Ideal.ofBits_zero_f32

/-- The accumulator step: old entry plus the block product's entry. -/
theorem accStep_apply (a : FVec Ideal S512x2048 .f32) (old : FVec Ideal S512x128 .f32) (x : FVec Ideal S2048x128 .f32)
    (r : Fin 512) (d : Fin 128) :
    k0_pay3 (F := Ideal) a old x (ix2 r d) = old (ix2 r d) + ∑ j : Fin 2048, a (ix2 r j) * x (ix2 j d) := by
  unfold k0_pay3
  refine (congrFun (shapeCast_self _ _) (ix2 r d)).trans ?_
  exact congrArg (old (ix2 r d) + ·) (blockProduct_apply a x r d)

/-- The degree step: old entry plus the block's row sum. -/
theorem degStep_apply (a : FVec Ideal S512x2048 .f32) (old : FVec Ideal S512x1 .f32) (r : Fin 512) (u : Fin 1) :
    k0_pay4 (F := Ideal) a old (ix2 r u) = old (ix2 r u) + ∑ j : Fin 2048, a (ix2 r j) := by
  unfold k0_pay4
  refine (congrFun (shapeCast_self _ _) (ix2 r u)).trans ?_
  refine congrArg (old (ix2 r u) + ·) ?_
  refine (shapeCast_apply _ shapeCasts_S512_S512x1 (ix2 r u) (ix1 r) ?_).trans (rowSum_apply a _ _ r)
  have hu : u.val = 0 := by omega
  rw [Shape.rowMajor_val_two, Shape.rowMajor_val_one]
  show r.val = r.val * 1 + u.val
  omega

/-- The closing formula. -/
theorem closing_apply (acc : FVec Ideal S512x128 .f32) (w : FVec Ideal S128x128 .f32) (deg : FVec Ideal S512x1 .f32)
    (b : FVec Ideal S1x128 .f32) (r : Fin 512) (o : Fin 128) :
    k0_pay5 (F := Ideal) acc w deg b (ix2 r o)
      = max (Ideal.div ((∑ d : Fin 128, acc (ix2 r d) * w (ix2 o d)) + deg (ix2 r (0 : Fin 1)) * b (ix2 (0 : Fin 1) o))
              (deg (ix2 r (0 : Fin 1)) + Ideal.ofBits .f32 0x358637BD#32))
          (Ideal.ofBits .f32 0x00000000#32) := by
  unfold k0_pay5
  have h1 : matmul dot_S512x128_S128x128_S512x128_1_0_0_1_n_n none acc (transpose S128x128 [1, 0] w transposes_S128x128_p1_0_S128x128)
        (constant (F := Ideal) S512x128 .f32 0x00000000#32) (ix2 r o) = ∑ d : Fin 128, acc (ix2 r d) * w (ix2 o d) :=
    (projection_apply acc _ r o).trans (Finset.sum_congr rfl fun d _ => congrArg (acc (ix2 r d) * ·)
      (transpose_apply [1, 0] w transposes_S128x128_p1_0_S128x128 (ix2 d o) (ix2 o d) (fun bx => match bx with
        | ⟨0, _⟩ => rfl
        | ⟨1, _⟩ => rfl)))
  have hcol : ∀ (v : FVec Ideal S512x1 .f32), broadcastTo S512x128 v broadcasts_S512x1_S512x128 (ix2 r o) = v (ix2 r (0 : Fin 1)) :=
    fun v => broadcastTo_apply v broadcasts_S512x1_S512x128 (ix2 r o) (ix2 r (0 : Fin 1)) (fun ax => match ax with
      | ⟨0, _⟩ => by show r.val = if (512 : Nat) = 1 then 0 else r.val; rw [if_neg (by decide)]
      | ⟨1, _⟩ => by show 0 = if (1 : Nat) = 1 then 0 else o.val; rw [if_pos rfl])
  have h3 : broadcastTo S512x128 (shapeCast S1x128 b shapeCasts_S1x128_S1x128) broadcasts_S1x128_S512x128 (ix2 r o) = b (ix2 (0 : Fin 1) o) :=
    (broadcastTo_1b_ab_apply _ broadcasts_S1x128_S512x128 r o).trans (congrFun (shapeCast_self b _) _)
  show max (Ideal.div (_ + _ * _) _) _ = _
  rw [h1, hcol, h3, hcol]
  rfl

end Cert.KernelIdeal.Payloads

end
-- ==== Proof.LibERealSums.lean ====
/-
  Finite sums, products and running maxima of extended reals all of whose terms are real numbers.

  On the extended reals multiplication does not distribute over addition at the infinities, and a sum
  cannot be regrouped against a factor there. Every law below is therefore proved by naming the real
  numbers behind the terms, moving the coercion ℝ → EReal outside the sum or product, and doing the
  algebra in ℝ.
-/
import Mathlib.Data.EReal.Operations
import Mathlib.Algebra.BigOperators.Group.Finset.Basic
import Mathlib.Algebra.BigOperators.Ring.Finset
import Mathlib.Data.Finset.Fold
import Mathlib.Tactic.Ring

namespace Cert.ERealSums

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product of two real extended reals is real. -/
theorem exists_real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A difference of two real extended reals is real. -/
theorem exists_real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

/-- A finite sum of real extended reals is real. -/
theorem exists_real_sum {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_finset_sum]; exact Finset.sum_congr rfl (fun i _ => hg i)⟩

/-- A finite sum of products of real extended reals (an inner product of two real vectors) is real. -/
theorem exists_real_sum_mul {ι : Type*} (s : Finset ι) (f g : ι → EReal) (hf : ∀ i, ∃ r : ℝ, f i = (r : EReal))
    (hg : ∀ i, ∃ r : ℝ, g i = (r : EReal)) : ∃ r : ℝ, ∑ i ∈ s, f i * g i = (r : EReal) :=
  exists_real_sum s _ (fun i => exists_real_mul (hf i) (hg i))

/-- The maximum of two real extended reals is real. -/
theorem exists_real_max {x y : EReal} (hx : ∃ r : ℝ, x = (r : EReal)) (hy : ∃ r : ℝ, y = (r : EReal)) :
    ∃ r : ℝ, max x y = (r : EReal) := by
  rcases le_total x y with h | h
  · rw [max_eq_right h]; exact hy
  · rw [max_eq_left h]; exact hx

/-- The running maximum, started from ⊥, of real values over a NONEMPTY finite set is real (over the empty
    set it is ⊥). -/
theorem exists_real_fold_max {ι : Type*} (s : Finset ι) (hs : s.Nonempty) (f : ι → EReal)
    (hf : ∀ i, ∃ r : ℝ, f i = (r : EReal)) : ∃ r : ℝ, s.fold max ⊥ f = (r : EReal) := by
  induction hs using Finset.Nonempty.cons_induction with
  | singleton a => rw [Finset.fold_singleton, max_bot_right]; exact hf a
  | cons a s ha hs ih => rw [Finset.fold_cons]; exact exists_real_max (hf a) ih

/-- A real factor moves out of a finite sum of products of reals: ∑ x·(w·c) = (∑ x·w)·c. (False on the
    extended reals in general: the sum on the right can be ⊤ + ⊥.) -/
theorem sum_mul_mul_eq_sum_mul_mul {ι : Type*} (s : Finset ι) (x w : ι → EReal) (c : EReal)
    (hx : ∀ i, ∃ r : ℝ, x i = (r : EReal)) (hw : ∀ i, ∃ r : ℝ, w i = (r : EReal)) (hc : ∃ r : ℝ, c = (r : EReal)) :
    ∑ i ∈ s, x i * (w i * c) = (∑ i ∈ s, x i * w i) * c := by
  choose a ha using hx
  choose b hb using hw
  obtain ⟨t, rfl⟩ := hc
  have h1 : ∀ i, x i * (w i * (t : EReal)) = ((a i * (b i * t) : ℝ) : EReal) := fun i => by
    rw [ha i, hb i, EReal.coe_mul, EReal.coe_mul]
  have h2 : ∀ i, x i * w i = ((a i * b i : ℝ) : EReal) := fun i => by rw [ha i, hb i, EReal.coe_mul]
  rw [Finset.sum_congr rfl (fun i _ => h1 i), Finset.sum_congr rfl (fun i _ => h2 i), ← coe_finset_sum,
    ← coe_finset_sum, ← EReal.coe_mul, Finset.sum_mul]
  exact congrArg _ (Finset.sum_congr rfl (fun i _ => by ring))

end Cert.ERealSums
-- ==== Proof.SageAlgebra.lean ====
/-
  The algebra that joins the two arrangements of one graph-aggregation layer.

  One side aggregates first and projects afterwards: for a row of neighbour weights `a`, a feature table `X`,
  a weight column `w` and a bias `b` it forms  ∑_d (∑_J a_J · X_{J,d}) · w_d  +  (∑_J a_J) · b.
  The other projects every node first and aggregates the projected rows:  ∑_J a_J · (∑_d X_{J,d} · w_d + b).
  Over the reals these are equal by distributivity and by exchanging the two finite sums. On the extended
  reals distributivity fails at the infinities, so the law is stated for terms that are real numbers: the real
  numbers behind them are named, the coercion is moved outside the sums, and the identity is proved in ℝ.

  The second half regroups a sum over 8192 consecutive indices into four consecutive blocks of 2048, taken in
  order: the running sum after block k, started at block 0, ends at the whole sum after block 3. This needs only
  that addition is commutative and associative, so it holds on the extended reals as they are.
-/
import proofs.«118977_g43241730737058_cont_9to1c4_547_6_alg».proof.Proof.LibERealSums
import Mathlib.Algebra.BigOperators.Fin
import Mathlib.Algebra.BigOperators.Ring.Finset
import Mathlib.Data.Fintype.BigOperators
import Mathlib.Tactic.Ring

namespace Cert.Sage

open Cert.ERealSums

/-! ## Aggregating before or after the projection: one real number -/

/-- Over ℝ: ∑_d (∑_J a_J X_{J,d}) w_d + (∑_J a_J) b = ∑_J a_J (∑_d X_{J,d} w_d + b). -/
theorem agg_proj_real {ι κ : Type*} [Fintype ι] [Fintype κ] (a : ι → ℝ) (X : ι → κ → ℝ) (w : κ → ℝ) (b : ℝ) :
    (∑ d, (∑ J, a J * X J d) * w d) + (∑ J, a J) * b = ∑ J, a J * ((∑ d, X J d * w d) + b) := by
  have hr : ∀ J, a J * ((∑ d, X J d * w d) + b) = (∑ d, a J * X J d * w d) + a J * b := fun J => by
    rw [mul_add, Finset.mul_sum]
    exact congrArg (· + a J * b) (Finset.sum_congr rfl fun d _ => by ring)
  have hl : ∀ d, (∑ J, a J * X J d) * w d = ∑ J, a J * X J d * w d := fun d => Finset.sum_mul _ _ _
  rw [Finset.sum_congr rfl fun J _ => hr J, Finset.sum_add_distrib, Finset.sum_congr rfl fun d _ => hl d,
    Finset.sum_comm, Finset.sum_mul]

/-- The same on the extended reals, for real-valued terms. -/
theorem agg_proj {ι κ : Type*} [Fintype ι] [Fintype κ] (a : ι → EReal) (X : ι → κ → EReal) (w : κ → EReal) (b : EReal)
    (ha : ∀ J, ∃ r : ℝ, a J = (r : EReal)) (hX : ∀ J d, ∃ r : ℝ, X J d = (r : EReal))
    (hw : ∀ d, ∃ r : ℝ, w d = (r : EReal)) (hb : ∃ r : ℝ, b = (r : EReal)) :
    (∑ d, (∑ J, a J * X J d) * w d) + (∑ J, a J) * b = ∑ J, a J * ((∑ d, X J d * w d) + b) := by
  choose a' ha' using ha
  choose X' hX' using hX
  choose w' hw' using hw
  obtain ⟨b', rfl⟩ := hb
  have e1 : ∀ d, (∑ J, a J * X J d) * w d = (((∑ J, a' J * X' J d) * w' d : ℝ) : EReal) := fun d => by
    rw [hw' d, EReal.coe_mul, coe_finset_sum]
    exact congrArg (· * (w' d : EReal)) (Finset.sum_congr rfl fun J _ => by rw [ha' J, hX' J d, EReal.coe_mul])
  have e2 : (∑ J, a J) * (b' : EReal) = (((∑ J, a' J) * b' : ℝ) : EReal) := by
    rw [EReal.coe_mul, coe_finset_sum]
    exact congrArg (· * (b' : EReal)) (Finset.sum_congr rfl fun J _ => ha' J)
  have e3 : ∀ J, a J * ((∑ d, X J d * w d) + (b' : EReal)) = ((a' J * ((∑ d, X' J d * w' d) + b') : ℝ) : EReal) := fun J => by
    rw [ha' J, EReal.coe_mul, EReal.coe_add, coe_finset_sum]
    exact congrArg (fun s => (a' J : EReal) * (s + (b' : EReal)))
      (Finset.sum_congr rfl fun d _ => by rw [hX' J d, hw' d, EReal.coe_mul])
  rw [Finset.sum_congr rfl fun d _ => e1 d, e2, Finset.sum_congr rfl fun J _ => e3 J, ← coe_finset_sum, ← coe_finset_sum,
    ← EReal.coe_add, agg_proj_real]

/-! ## 8192 consecutive indices as four blocks of 2048 -/

/-- Position `j` of block `kb`. Total in both arguments (reduced modulo 8192), so that a running sum can be indexed by
    a natural number; for `kb < 4` and `j < 2048` it is `2048 · kb + j`. -/
def colOf (kb j : ℕ) : Fin 8192 := ⟨(2048 * kb + j) % 8192, Nat.mod_lt _ (by decide)⟩

/-- Row `r` of row block `ib` of 512 rows; for `ib < 16` and `r < 512` it is `512 · ib + r`. -/
def rowOf (ib r : ℕ) : Fin 8192 := ⟨(512 * ib + r) % 8192, Nat.mod_lt _ (by decide)⟩

theorem colOf_val (kb j : ℕ) (hk : kb < 4) (hj : j < 2048) : (colOf kb j).val = 2048 * kb + j := by
  show (2048 * kb + j) % 8192 = _; omega

theorem rowOf_val (ib r : ℕ) (hi : ib < 16) (hr : r < 512) : (rowOf ib r).val = 512 * ib + r := by
  show (512 * ib + r) % 8192 = _; omega

/-- (block, position) ↔ index. -/
def blockEquiv : Fin 4 × Fin 2048 ≃ Fin 8192 where
  toFun p := colOf p.1.val p.2.val
  invFun J := (⟨J.val / 2048, by have := J.isLt; omega⟩, ⟨J.val % 2048, Nat.mod_lt _ (by decide)⟩)
  left_inv p := by
    obtain ⟨⟨a, ha⟩, ⟨b, hb⟩⟩ := p
    have h := colOf_val a b ha hb
    refine Prod.ext (Fin.ext ?_) (Fin.ext ?_)
    · show (colOf a b).val / 2048 = a; omega
    · show (colOf a b).val % 2048 = b; omega
  right_inv J := by
    have hJ := J.isLt
    refine Fin.ext ?_
    show (colOf (J.val / 2048) (J.val % 2048)).val = J.val
    rw [colOf_val _ _ (by omega) (Nat.mod_lt _ (by decide))]; omega

/-- The running sum of the block sums `B 0, B 1, …`, in order. -/
def partSum {M : Type*} [Add M] (B : ℕ → M) : ℕ → M
  | 0 => B 0
  | k + 1 => partSum B k + B (k + 1)

theorem partSum_zero {M : Type*} [Add M] (B : ℕ → M) : partSum B 0 = B 0 := rfl
theorem partSum_succ {M : Type*} [Add M] (B : ℕ → M) (k : ℕ) : partSum B (k + 1) = partSum B k + B (k + 1) := rfl

/-- After the fourth block the running sum is the whole sum. -/
theorem partSum_three {M : Type*} [AddCommMonoid M] (f : Fin 8192 → M) :
    partSum (fun kb => ∑ j : Fin 2048, f (colOf kb j.val)) 3 = ∑ J, f J := by
  rw [← Equiv.sum_comp blockEquiv f, Fintype.sum_prod_type, Fin.sum_univ_four]
  rfl

end Cert.Sage
-- ==== Proof.SageBlocks.lean ====
/-
  The input blocks of a grid step, read as entries of the whole argument arrays.

  Grid step t (0 ≤ t < 64) works on row block t / 4 and column block t % 4. Its four input blocks are
    the adjacency block : rows 512·(t/4) … +511, columns 2048·(t%4) … +2047 of the 8192 × 8192 adjacency matrix;
    the feature block   : rows 2048·(t%4) … +2047 (all 128 columns) of the 8192 × 128 feature matrix;
    the weight matrix   : whole, at every step;
    the bias row        : the bias vector laid out as one row of 128, whole, at every step.
  A block entry is the array entry at (block index × block size + position inside the block) on each axis; which
  block index a step uses on each axis is decided once for all 64 steps.
-/
import proofs.«118977_g43241730737058_cont_9to1c4_547_6_alg».proof.Proof.Gen.KernelIdeal.Frame.Runs
import proofs.«118977_g43241730737058_cont_9to1c4_547_6_alg».proof.Proof.SageAlgebra
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem

namespace Cert.KernelIdeal.Blocks

open Cert.KernelIdeal Cert.KernelIdeal.Gen Idealize.ShloMosaic.ValueIdx Cert.Sage

variable {F : FTy → Type} [FloatOps F]
variable (m : (ℓ : Loc nD τ sig) → Buf (Elt F) ℓ)

/-- The argument arrays as launched, at their literal shapes. -/
abbrev adjArr (c : Dev nD) : Vec F S8192x8192 .f32 := m ((c : Thread nD τ).loc main_arg1)
abbrev featArr (c : Dev nD) : Vec F S8192x128 .f32 := m ((c : Thread nD τ).loc main_arg0)
abbrev weightArr (c : Dev nD) : Vec F S128x128 .f32 := m ((c : Thread nD τ).loc main_arg2)
abbrev biasArr (c : Dev nD) : Vec F S128 .f32 := m ((c : Thread nD τ).loc main_arg3)

/-- The four input blocks of step t, at their literal shapes. -/
abbrev adjBlk (c : Dev nD) (t : Fin cfg0.N) : Vec F S512x2048 .f32 := iblk m c 0 t
abbrev featBlk (c : Dev nD) (t : Fin cfg0.N) : Vec F S2048x128 .f32 := iblk m c 1 t
abbrev weightBlk (c : Dev nD) (t : Fin cfg0.N) : Vec F S128x128 .f32 := iblk m c 2 t
abbrev biasBlk (c : Dev nD) (t : Fin cfg0.N) : Vec F S1x128 .f32 := iblk m c 3 t

/-- Which block each window fetches at step t, on each axis. -/
theorem adjIndex : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem featIndex : ∀ t : Fin cfg0.N, win0_1.index t 0 = t.val % 4 ∧ win0_1.index t 1 = 0 :=
  (by decide +kernel : ∀ t : Fin grid0.N, win0_1.index t 0 = t.val % 4 ∧ win0_1.index t 1 = 0)
theorem weightIndex : ∀ t : Fin cfg0.N, win0_2.index t 0 = 0 ∧ win0_2.index t 1 = 0 :=
  (by decide +kernel : ∀ t : Fin grid0.N, win0_2.index t 0 = 0 ∧ win0_2.index t 1 = 0)
theorem biasIndex : ∀ t : Fin cfg0.N, win0_3.index t 0 = 0 ∧ win0_3.index t 1 = 0 :=
  (by decide +kernel : ∀ t : Fin grid0.N, win0_3.index t 0 = 0 ∧ win0_3.index t 1 = 0)

theorem adjBlk_apply (c : Dev nD) (t : Fin cfg0.N) (r : Fin 512) (j : Fin 2048) :
    adjBlk m c t (ix2 r j) = adjArr m c (ix2 (rowOf (t.val / 4) r.val) (colOf (t.val % 4) j.val)) := by
  have hi := adjIndex t
  have hN : t.val < 64 := lt_of_lt_of_eq t.isLt N_0
  show iblk m c 0 t (ix2 r j) = _
  unfold iblk
  rw [View.read_apply]
  show V m c main_arg1 _ = m ((c : Thread nD τ).loc main_arg1) _
  rw [V_main_arg1 m c]
  congr 1
  funext a
  apply Fin.ext
  match a with
  | ⟨0, _⟩ =>
    show win0_0.index t 0 * 512 + 1 * r.val = (rowOf (t.val / 4) r.val).val
    rw [hi.1, rowOf_val _ _ (by omega) r.isLt]; omega
  | ⟨1, _⟩ =>
    show win0_0.index t 1 * 2048 + 1 * j.val = (colOf (t.val % 4) j.val).val
    rw [hi.2, colOf_val _ _ (by omega) j.isLt]; omega

theorem featBlk_apply (c : Dev nD) (t : Fin cfg0.N) (j : Fin 2048) (d : Fin 128) :
    featBlk m c t (ix2 j d) = featArr m c (ix2 (colOf (t.val % 4) j.val) d) := by
  have hi := featIndex t
  have hN : t.val < 64 := lt_of_lt_of_eq t.isLt N_0
  show iblk m c 1 t (ix2 j d) = _
  unfold iblk
  rw [View.read_apply]
  show V m c main_arg0 _ = m ((c : Thread nD τ).loc main_arg0) _
  rw [V_main_arg0 m c]
  congr 1
  funext a
  apply Fin.ext
  match a with
  | ⟨0, _⟩ =>
    show win0_1.index t 0 * 2048 + 1 * j.val = (colOf (t.val % 4) j.val).val
    rw [hi.1, colOf_val _ _ (by omega) j.isLt]; omega
  | ⟨1, _⟩ =>
    show win0_1.index t 1 * 128 + 1 * d.val = d.val
    rw [hi.2]; omega

theorem weightBlk_apply (c : Dev nD) (t : Fin cfg0.N) (o d : Fin 128) :
    weightBlk m c t (ix2 o d) = weightArr m c (ix2 o d) := by
  have hi := weightIndex t
  show iblk m c 2 t (ix2 o d) = _
  unfold iblk
  rw [View.read_apply]
  show V m c main_arg2 _ = m ((c : Thread nD τ).loc main_arg2) _
  rw [V_main_arg2 m c]
  congr 1
  funext a
  apply Fin.ext
  match a with
  | ⟨0, _⟩ =>
    show win0_2.index t 0 * 128 + 1 * o.val = o.val
    rw [hi.1]; omega
  | ⟨1, _⟩ =>
    show win0_2.index t 1 * 128 + 1 * d.val = d.val
    rw [hi.2]; omega

/-- The bias row the region finds: the bias vector laid out as 1 × 128 before the region starts. -/
theorem biasRow_eq (c : Dev nD) :
    (V m c main_v0 : Vec F S1x128 .f32) = shapeCast S1x128 (biasArr m c) shapeCasts_S128_S1x128 := by
  dsimp only [V, hostOps0]
  after_results
  rfl

theorem biasBlk_apply (c : Dev nD) (t : Fin cfg0.N) (o : Fin 128) :
    biasBlk m c t (ix2 (0 : Fin 1) o) = biasArr m c (ix1 o) := by
  have hi := biasIndex t
  show iblk m c 3 t (ix2 (0 : Fin 1) o) = _
  unfold iblk
  rw [View.read_apply]
  show V m c main_v0 _ = _
  rw [biasRow_eq m c]
  refine Eq.trans (congrArg _ ?_) (shapeCast_a_1a_apply (biasArr m c) shapeCasts_S128_S1x128 (0 : Fin 1) o)
  funext a
  apply Fin.ext
  match a with
  | ⟨0, _⟩ =>
    show win0_3.index t 0 * 1 + 1 * 0 = 0
    rw [hi.1]
  | ⟨1, _⟩ =>
    show win0_3.index t 1 * 128 + 1 * o.val = o.val
    rw [hi.2]; omega

end Cert.KernelIdeal.Blocks

end
-- ==== Proof.SageSpec.lean ====
/-
  The layer as one function of the whole arrays, in the two arrangements the two programs compute it in.

  With adjacency weights A (8192 × 8192), features X (8192 × 128), weight matrix W (128 × 128, row o the weights of
  output feature o), bias b, the constant ε added to the degree and the floor z of the final maximum:

    aggregate first :  max( ( ∑_d (∑_J A(i,J)·X(J,d)) · W(o,d)  +  (∑_J A(i,J)) · b(o) ) / ( ∑_J A(i,J) + ε ), z )
    project first   :  max( ( ∑_J A(i,J) · ( ∑_d X(J,d)·W(o,d) + b(o) ) )            / ( ∑_J A(i,J) + ε ), z )

  The denominators and the outer maximum are literally the same; the numerators are equal when every entry is a real
  number (distributivity, and exchanging the two sums). The quotient is the extended reals' own, the same on both sides.
-/
import proofs.«118977_g43241730737058_cont_9to1c4_547_6_alg».proof.Proof.SageAlgebra
import Idealize.ShloMosaic.PureOps.Ideal

noncomputable section

namespace Cert.Sage

open Idealize.ShloMosaic

/-- Aggregate the neighbours' raw features, then project the aggregate and add degree × bias. -/
def layerAggFirst (A : Fin 8192 → Fin 8192 → EReal) (X : Fin 8192 → Fin 128 → EReal) (W : Fin 128 → Fin 128 → EReal)
    (b : Fin 128 → EReal) (ε z : EReal) (i : Fin 8192) (o : Fin 128) : EReal :=
  max (Ideal.div ((∑ d, (∑ J, A i J * X J d) * W o d) + (∑ J, A i J) * b o) ((∑ J, A i J) + ε)) z

/-- Project every node (with its bias), then aggregate the projected rows. -/
def layerProjFirst (A : Fin 8192 → Fin 8192 → EReal) (X : Fin 8192 → Fin 128 → EReal) (W : Fin 128 → Fin 128 → EReal)
    (b : Fin 128 → EReal) (ε z : EReal) (i : Fin 8192) (o : Fin 128) : EReal :=
  max (Ideal.div (∑ J, A i J * ((∑ d, X J d * W o d) + b o)) ((∑ J, A i J) + ε)) z

/-- On real-valued arrays the two arrangements are one function. -/
theorem layer_forms_eq (A : Fin 8192 → Fin 8192 → EReal) (X : Fin 8192 → Fin 128 → EReal) (W : Fin 128 → Fin 128 → EReal)
    (b : Fin 128 → EReal) (ε z : EReal)
    (hA : ∀ i J, ∃ r : ℝ, A i J = (r : EReal)) (hX : ∀ J d, ∃ r : ℝ, X J d = (r : EReal))
    (hW : ∀ o d, ∃ r : ℝ, W o d = (r : EReal)) (hb : ∀ o, ∃ r : ℝ, b o = (r : EReal)) (i : Fin 8192) (o : Fin 128) :
    layerAggFirst A X W b ε z i o = layerProjFirst A X W b ε z i o := by
  unfold layerAggFirst layerProjFirst
  rw [agg_proj (fun J => A i J) X (fun d => W o d) (b o) (hA i) hX (hW o) (hb o)]

end Cert.Sage

end
-- ==== Proof.SageCarried.lean ====
/-
  What the two carried buffers hold after every grid step, in closed form.

  Step t works on row block ib = t / 4 and column block kb = t % 4. Write, for a row r of the block and a feature d,
      accTerm kb = ∑_{j < 2048} A(512·ib + r, 2048·kb + j) · X(2048·kb + j, d)      (the block's share of (A·X)(row, d))
      degTerm kb = ∑_{j < 2048} A(512·ib + r, 2048·kb + j)                          (the block's share of the row sum).
  CLAIM: after step t the accumulator's entry (r, d) is accTerm 0 + … + accTerm (t % 4), and the degree column's entry
  (r, 0) is degTerm 0 + … + degTerm (t % 4), the shares added in order.
  By induction on t. At a first column block the buffers are cleared (every entry 0) before the share is added, so the
  entry is 0 + share = share, the running sum of length one. At any other step the entry is the entry the step before
  left, which is the running sum up to t % 4 − 1 of the SAME row block (t − 1 and t share t / 4), plus the share of block
  t % 4. After the last column block (t % 4 = 3) the running sums are the full sums over all 8192 columns, and the same
  step writes the output block by the closing formula of those two finished buffers.
-/
import proofs.«118977_g43241730737058_cont_9to1c4_547_6_alg».proof.Proof.Gen.KernelIdeal.Frame
import proofs.«118977_g43241730737058_cont_9to1c4_547_6_alg».proof.Proof.SagePieces
import proofs.«118977_g43241730737058_cont_9to1c4_547_6_alg».proof.Proof.SagePayloads
import proofs.«118977_g43241730737058_cont_9to1c4_547_6_alg».proof.Proof.SageBlocks
import proofs.«118977_g43241730737058_cont_9to1c4_547_6_alg».proof.Proof.SageSpec

noncomputable section

open Idealize.ShloMosaic Idealize.ShloMosaic.TcCoe Idealize.SL.Sem

namespace Cert.KernelIdeal.Carried

open Cert.KernelIdeal Cert.KernelIdeal.Gen Idealize.ShloMosaic.ValueIdx Cert.Sage
open Cert.KernelIdeal.Pieces Cert.KernelIdeal.Payloads Cert.KernelIdeal.Blocks

variable (m : (ℓ : Loc nD τ sig) → Buf (Elt Ideal) ℓ)

/-- The whole arrays as functions of two coordinates. -/
abbrev A (c : Dev nD) : Fin 8192 → Fin 8192 → EReal := fun a b => adjArr m c (ix2 a b)
abbrev X (c : Dev nD) : Fin 8192 → Fin 128 → EReal := fun a b => featArr m c (ix2 a b)
abbrev W (c : Dev nD) : Fin 128 → Fin 128 → EReal := fun a b => weightArr m c (ix2 a b)
abbrev bias (c : Dev nD) : Fin 128 → EReal := fun o => biasArr m c (ix1 o)

/-- Column block kb's share of entry (row r of row block ib, feature d) of the product A·X. -/
def accTerm (c : Dev nD) (ib : ℕ) (r : Fin 512) (d : Fin 128) : ℕ → EReal :=
  fun kb => ∑ j : Fin 2048, A m c (rowOf ib r.val) (colOf kb j.val) * X m c (colOf kb j.val) d

/-- Column block kb's share of the row sum of A at row r of row block ib. -/
def degTerm (c : Dev nD) (ib : ℕ) (r : Fin 512) : ℕ → EReal :=
  fun kb => ∑ j : Fin 2048, A m c (rowOf ib r.val) (colOf kb j.val)

/-! ## One step, as payloads of the step's blocks -/

theorem step_first (c : Dev nD) (t : Fin cfg0.N) (h0 : t.val % 4 = 0) :
    (outsAt0 m c t.val t.isLt).2.1 = k0_pay3 (adjBlk m c t) (k0_pay1 (F := Ideal)) (featBlk m c t)
    ∧ (outsAt0 m c t.val t.isLt).2.2 = k0_pay4 (adjBlk m c t) (k0_pay2 (F := Ideal)) := by
  have h1 : ¬t.val % 4 = 3 := by omega
  rw [outsAt0_A m c t h0 h1]
  dsimp only
  exact ⟨acc_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t),
    deg_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)⟩

theorem step_later (c : Dev nD) (t : Fin cfg0.N) (h0 : ¬t.val % 4 = 0) :
    (outsAt0 m c t.val t.isLt).2.1 = k0_pay3 (adjBlk m c t) (outsAt0 m c (t.val - 1) (Nat.lt_of_le_of_lt (Nat.sub_le _ _) t.isLt)).2.1 (featBlk m c t)
    ∧ (outsAt0 m c t.val t.isLt).2.2 = k0_pay4 (adjBlk m c t) (outsAt0 m c (t.val - 1) (Nat.lt_of_le_of_lt (Nat.sub_le _ _) t.isLt)).2.2 := by
  by_cases h1 : t.val % 4 = 3
  · rw [outsAt0_C m c t h0 h1]
    dsimp only
    exact ⟨acc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
      deg_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2⟩
  · rw [outsAt0_B m c t h0 h1]
    dsimp only
    exact ⟨acc_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2,
      deg_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2⟩

/-- At a last column block the output block is the closing formula of the two buffers as the same step leaves them. -/
theorem out_at_last (c : Dev nD) (t : Fin cfg0.N) (h1 : t.val % 4 = 3) :
    (outsAt0 m c t.val t.isLt).1
      = k0_pay5 (outsAt0 m c t.val t.isLt).2.1 (weightBlk m c t) (outsAt0 m c t.val t.isLt).2.2 (biasBlk m c t) := by
  have h0 : ¬t.val % 4 = 0 := by omega
  obtain ⟨ea, ed⟩ := step_later m c t h0
  rw [ea, ed, outsAt0_C m c t h0 h1]
  dsimp only
  exact out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2

/-! ## One step, entry by entry -/

theorem acc_first_apply (c : Dev nD) (t : Fin cfg0.N) (h0 : t.val % 4 = 0) (r : Fin 512) (d : Fin 128) :
    (outsAt0 m c t.val t.isLt).2.1 (ix2 r d) = accTerm m c (t.val / 4) r d (t.val % 4) := by
  rw [(step_first m c t h0).1]
  refine (accStep_apply _ _ _ r d).trans ?_
  rw [clearedAcc_apply, zero_add]
  exact Finset.sum_congr rfl fun j _ => by rw [adjBlk_apply, featBlk_apply]

theorem deg_first_apply (c : Dev nD) (t : Fin cfg0.N) (h0 : t.val % 4 = 0) (r : Fin 512) (u : Fin 1) :
    (outsAt0 m c t.val t.isLt).2.2 (ix2 r u) = degTerm m c (t.val / 4) r (t.val % 4) := by
  rw [(step_first m c t h0).2]
  refine (degStep_apply _ _ r u).trans ?_
  rw [clearedDeg_apply, zero_add]
  exact Finset.sum_congr rfl fun j _ => by rw [adjBlk_apply]

theorem acc_later_apply (c : Dev nD) (t : Fin cfg0.N) (h0 : ¬t.val % 4 = 0) (r : Fin 512) (d : Fin 128) :
    (outsAt0 m c t.val t.isLt).2.1 (ix2 r d)
      = (outsAt0 m c (t.val - 1) (Nat.lt_of_le_of_lt (Nat.sub_le _ _) t.isLt)).2.1 (ix2 r d) + accTerm m c (t.val / 4) r d (t.val % 4) := by
  rw [(step_later m c t h0).1]
  refine (accStep_apply _ _ _ r d).trans ?_
  exact congrArg (_ + ·) (Finset.sum_congr rfl fun j _ => by rw [adjBlk_apply, featBlk_apply])

theorem deg_later_apply (c : Dev nD) (t : Fin cfg0.N) (h0 : ¬t.val % 4 = 0) (r : Fin 512) (u : Fin 1) :
    (outsAt0 m c t.val t.isLt).2.2 (ix2 r u)
      = (outsAt0 m c (t.val - 1) (Nat.lt_of_le_of_lt (Nat.sub_le _ _) t.isLt)).2.2 (ix2 r u) + degTerm m c (t.val / 4) r (t.val % 4) := by
  rw [(step_later m c t h0).2]
  refine (degStep_apply _ _ r u).trans ?_
  exact congrArg (_ + ·) (Finset.sum_congr rfl fun j _ => by rw [adjBlk_apply])

/-! ## The running sums -/

theorem acc_running (c : Dev nD) : ∀ (n : ℕ) (hn : n < cfg0.N) (r : Fin 512) (d : Fin 128),
    (outsAt0 m c n hn).2.1 (ix2 r d) = partSum (accTerm m c (n / 4) r d) (n % 4) := by
  intro n
  induction n with
  | zero => intro hn r d; exact acc_first_apply m c ⟨0, hn⟩ rfl r d
  | succ n ih =>
    intro hn r d
    have hN : n + 1 < 64 := lt_of_lt_of_eq hn (show cfg0.N = 64 from N_0)
    by_cases h0 : (n + 1) % 4 = 0
    · refine (acc_first_apply m c ⟨n + 1, hn⟩ h0 r d).trans ?_
      show accTerm m c ((n + 1) / 4) r d ((n + 1) % 4) = partSum (accTerm m c ((n + 1) / 4) r d) ((n + 1) % 4)
      rw [h0]; rfl
    · refine (acc_later_apply m c ⟨n + 1, hn⟩ h0 r d).trans ?_
      have e1 : (n + 1) / 4 = n / 4 := by omega
      have e2 : (n + 1) % 4 = n % 4 + 1 := by omega
      show (outsAt0 m c n _).2.1 (ix2 r d) + accTerm m c ((n + 1) / 4) r d ((n + 1) % 4)
        = partSum (accTerm m c ((n + 1) / 4) r d) ((n + 1) % 4)
      rw [ih _ r d, e1, e2, partSum_succ]

theorem deg_running (c : Dev nD) : ∀ (n : ℕ) (hn : n < cfg0.N) (r : Fin 512) (u : Fin 1),
    (outsAt0 m c n hn).2.2 (ix2 r u) = partSum (degTerm m c (n / 4) r) (n % 4) := by
  intro n
  induction n with
  | zero => intro hn r u; exact deg_first_apply m c ⟨0, hn⟩ rfl r u
  | succ n ih =>
    intro hn r u
    have hN : n + 1 < 64 := lt_of_lt_of_eq hn (show cfg0.N = 64 from N_0)
    by_cases h0 : (n + 1) % 4 = 0
    · refine (deg_first_apply m c ⟨n + 1, hn⟩ h0 r u).trans ?_
      show degTerm m c ((n + 1) / 4) r ((n + 1) % 4) = partSum (degTerm m c ((n + 1) / 4) r) ((n + 1) % 4)
      rw [h0]; rfl
    · refine (deg_later_apply m c ⟨n + 1, hn⟩ h0 r u).trans ?_
      have e1 : (n + 1) / 4 = n / 4 := by omega
      have e2 : (n + 1) % 4 = n % 4 + 1 := by omega
      show (outsAt0 m c n _).2.2 (ix2 r u) + degTerm m c ((n + 1) / 4) r ((n + 1) % 4)
        = partSum (degTerm m c ((n + 1) / 4) r) ((n + 1) % 4)
      rw [ih _ r u, e1, e2, partSum_succ]

/-! ## The output block of a last column block -/

/-- Entry (r, o) of the output block written at a last column block is the layer, aggregated first, at row
    512·(t/4) + r and output feature o of the whole arrays. -/
theorem out_entry (c : Dev nD) (t : Fin cfg0.N) (h1 : t.val % 4 = 3) (r : Fin 512) (o : Fin 128) :
    (outsAt0 m c t.val t.isLt).1 (ix2 r o)
      = layerAggFirst (A m c) (X m c) (W m c) (bias m c) (Ideal.ofBits .f32 0x358637BD#32) (Ideal.ofBits .f32 0x00000000#32)
          (rowOf (t.val / 4) r.val) o := by
  rw [out_at_last m c t h1]
  refine (closing_apply _ _ _ _ r o).trans ?_
  have hacc : ∀ d : Fin 128, (outsAt0 m c t.val t.isLt).2.1 (ix2 r d) = ∑ J, A m c (rowOf (t.val / 4) r.val) J * X m c J d :=
    fun d => by
      rw [acc_running m c t.val t.isLt r d, h1]
      exact partSum_three (fun J => A m c (rowOf (t.val / 4) r.val) J * X m c J d)
  have hdeg : (outsAt0 m c t.val t.isLt).2.2 (ix2 r (0 : Fin 1)) = ∑ J, A m c (rowOf (t.val / 4) r.val) J := by
    rw [deg_running m c t.val t.isLt r 0, h1]
    exact partSum_three (fun J => A m c (rowOf (t.val / 4) r.val) J)
  rw [Finset.sum_congr rfl fun d _ => by rw [hacc d, weightBlk_apply], hdeg, biasBlk_apply]
  rfl

end Cert.KernelIdeal.Carried

end
-- ==== Proof.SageKernelValue.lean ====
/-
  The kernel's result array, whole.

  Only the steps at a last column block (t % 4 = 3) write the output block back, and step t = 4·ib + 3 writes it to rows
  512·ib … 512·ib + 511 (all 128 columns) of the result. By the running sums, entry (r, o) of that block is the layer,
  aggregated first, at row 512·ib + r and feature o of the whole input arrays: the block is the restriction of ONE
  function of the whole arrays to the block's rows. Row i of the result lies in the block of step 4·(i / 512) + 3, so
  the sixteen written blocks cover the array, and the array ends holding that function everywhere.
-/
import proofs.«118977_g43241730737058_cont_9to1c4_547_6_alg».proof.Proof.Gen.KernelIdeal.Value
import proofs.«118977_g43241730737058_cont_9to1c4_547_6_alg».proof.Proof.SageCarried

noncomputable section

open Idealize.ShloMosaic Idealize.ShloMosaic.TcCoe Idealize.SL.Sem
open Idealize.ShloMosaic.Pipeline (Dat)

namespace Cert.KernelIdeal.Whole

open Cert.KernelIdeal Cert.KernelIdeal.Gen Idealize.ShloMosaic.ValueIdx Cert.Sage
open Cert.KernelIdeal.Blocks Cert.KernelIdeal.Carried

variable (m : (ℓ : Loc nD τ sig) → Buf (Elt Ideal) ℓ) (ρ : Dev nD → PrngReg)

/-- The layer, aggregated first, of the launched arrays: what the result array ends holding. -/
def result (c : Dev nD) : Vec Ideal S8192x128 .f32 := fun i =>
  layerAggFirst (A m c) (X m c) (W m c) (bias m c) (Ideal.ofBits .f32 0x358637BD#32) (Ideal.ofBits .f32 0x00000000#32) (i 0) (i 1)

/-- Which block of the result step t addresses. -/
theorem outIndex : ∀ t : Fin cfg0.N, win0_4.index t 0 = t.val / 4 ∧ win0_4.index t 1 = 0 :=
  (by decide +kernel : ∀ t : Fin grid0.N, win0_4.index t 0 = t.val / 4 ∧ win0_4.index t 1 = 0)

/-- What a writing step writes back is its block of `result`. -/
theorem flushed_eq (c : Dev nD) (t : Fin cfg0.N) (hf : (cfg0.win 4).flush t = true) :
    (dats m 0 c).flushed 4 t = ((cfg0.win 4).blk t).view.read (Elt Ideal) (result m c) := by
  have h3 : t.val % 4 = 3 := (flush0_4 t).mp hf
  have hN : t.val < 64 := lt_of_lt_of_eq t.isLt N_0
  have hi := outIndex t
  rw [Value.flushed4]
  refine funext fun (y : S512x128.Idx) => ?_
  obtain ⟨r, o, rfl⟩ : ∃ (r : Fin 512) (o : Fin 128), y = ix2 r o := ⟨y 0, y 1, eq_ix2 y⟩
  show (outsAt0 m c t.val t.isLt).1 (ix2 r o) = result m c (((cfg0.win 4).blk t).view.emb (ix2 r o))
  rw [out_entry m c t h3 r o]
  unfold result
  congr 1
  · apply Fin.ext
    show (rowOf (t.val / 4) r.val).val = win0_4.index t 0 * 512 + 1 * r.val
    rw [hi.1, rowOf_val _ _ (by omega) r.isLt]; omega
  · apply Fin.ext
    show o.val = win0_4.index t 1 * 128 + 1 * o.val
    rw [hi.2]; omega

/-- An index of the result lies in step t's block iff each coordinate lies in the block's range on its axis. -/
theorem mem_blk (t : Fin cfg0.N) (i : S8192x128.Idx) :
    i ∈ ((cfg0.win 4).blk t).view.set ↔ ∀ a : Fin 2, win0_4.index t a * S512x128.size a ≤ (i a).val ∧ (i a).val < win0_4.index t a * S512x128.size a + S512x128.size a := by
  show i ∈ ((View.whole main_v1).slice (win0_4.rect t)).set ↔ _
  rw [View.set_slice_whole, Rect.mem_set_unit]
  exact Iff.rfl

/-- Every index of the result is in the block some writing step writes. -/
theorem cover (i : S8192x128.Idx) : ∃ t : Fin cfg0.N, (cfg0.win 4).flush t = true ∧ i ∈ ((cfg0.win 4).blk t).view.set := by
  have hi0 : (i 0).val < 8192 := (i 0).isLt
  have hi1 : (i 1).val < 128 := (i 1).isLt
  have hN : cfg0.N = 64 := N_0
  let t : Fin cfg0.N := ⟨4 * ((i 0).val / 512) + 3, by rw [hN]; omega⟩
  have ht : t.val = 4 * ((i 0).val / 512) + 3 := rfl
  have hx := outIndex t
  refine ⟨t, (flush0_4 t).mpr (by rw [ht]; omega), ?_⟩
  rw [mem_blk]
  intro a
  match a with
  | ⟨0, _⟩ =>
    show win0_4.index t 0 * 512 ≤ (i 0).val ∧ (i 0).val < win0_4.index t 0 * 512 + 512
    rw [hx.1, ht]; omega
  | ⟨1, _⟩ =>
    show win0_4.index t 1 * 128 ≤ (i 1).val ∧ (i 1).val < win0_4.index t 1 * 128 + 128
    rw [hx.2]; omega

/-- The result array after the run. -/
theorem final (c : Dev nD) : (dats m 0 c).arrAt 4 cfg0.N = result m c :=
  (dats m 0 c).arrAt_eq_of_cover 4 (result m c) (flushed_eq m c) cover

/-- The run, read: the result array at `result`, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.SageReference.lean ====
/-
  The reference program, read entry by entry: it is the layer with the projection first.

  The reference transposes W, multiplies X by it (entry (J, o): ∑_d X(J,d) · W(o,d)), adds the bias stretched over the rows,
  multiplies A by the result (entry (i, o): ∑_J A(i,J) · (…)), sums A along its rows from the float zero (0 + ∑_J A(i,J)),
  adds the constant ε, divides and takes the maximum with the float zero. Each of its seventeen operations reads its
  operands at one index (the generated stage lemmas); chained, entry (i, o) of the result is the project-first formula,
  the leading 0 of the row sum dropped (0 + s = s).
-/
import proofs.«118977_g43241730737058_cont_9to1c4_547_6_alg».proof.Proof.Gen.ReferenceIdeal.Read
import proofs.«118977_g43241730737058_cont_9to1c4_547_6_alg».proof.Proof.SageSpec
import Idealize.ShloMosaic.Lib.ValueIdx

noncomputable section

open Idealize.ShloMosaic Idealize.ShloMosaic.TcCoe Idealize.SL.Sem

namespace Cert.ReferenceIdeal.Layer

open Cert.ReferenceIdeal Cert.ReferenceIdeal.Gen Cert.ReferenceIdeal.Read Idealize.ShloMosaic.ValueIdx Cert.Sage

/-- Entry (p, o) of the reference's result. -/
theorem ref_entry (x0 : FVec Ideal S8192x128 .f32) (x1 : FVec Ideal S8192x8192 .f32) (x2 : FVec Ideal S128x128 .f32)
    (x3 : FVec Ideal S128 .f32) (p : Fin 8192) (o : Fin 128) :
    val_main_v12 (F := Ideal) x0 x1 x2 x3 (ix2 p o)
      = layerProjFirst (fun a b => x1 (ix2 a b)) (fun a b => x0 (ix2 a b)) (fun a b => x2 (ix2 a b)) (fun o => x3 (ix1 o))
          (Ideal.ofBits .f32 0x358637BD#32) (Ideal.ofBits .f32 0x00000000#32) p o := by
  have e5l : ∀ k : Fin 8192, lidx_main_v5 (ix2 p o) k = ix2 p k := fun k => funext fun a => Fin.ext (by
    match a with | ⟨0, _⟩ => rfl | ⟨1, _⟩ => rfl)
  have e5r : ∀ k : Fin 8192, ridx_main_v5 (ix2 p o) k = ix2 k o := fun k => funext fun a => Fin.ext (by
    match a with | ⟨0, _⟩ => rfl | ⟨1, _⟩ => rfl)
  have e1l : ∀ (J : Fin 8192) (k : Fin 128), lidx_main_v1 (ix2 J o) k = ix2 J k := fun J k => funext fun a => Fin.ext (by
    match a with | ⟨0, _⟩ => rfl | ⟨1, _⟩ => rfl)
  have e1r : ∀ (J : Fin 8192) (k : Fin 128), ridx_main_v1 (ix2 J o) k = ix2 k o := fun J k => funext fun a => Fin.ext (by
    match a with | ⟨0, _⟩ => rfl | ⟨1, _⟩ => rfl)
  have e0 : ∀ k : Fin 128, idx_main_v0 (ix2 k o) = ix2 o k := fun k => funext fun a => Fin.ext (by
    match a with | ⟨0, _⟩ => rfl | ⟨1, _⟩ => rfl)
  have e3 : ∀ J : Fin 8192, idx_main_v3 (ix2 J o) = ix2 (0 : Fin 1) o := fun J => funext fun a => Fin.ext (by
    match a with | ⟨0, _⟩ => rfl | ⟨1, _⟩ => rfl)
  have e2 : idx_main_v2 (ix2 (0 : Fin 1) o) = ix1 o := funext fun a => Fin.ext (by
    match a with | ⟨0, _⟩ => rfl)
  have e10 : idx_main_v10 (ix2 p o) = ix2 p (0 : Fin 1) := funext fun a => Fin.ext (by
    match a with | ⟨0, _⟩ => rfl | ⟨1, _⟩ => rfl)
  have e7 : idx_main_v7 (ix2 p (0 : Fin 1)) = ix1 p := funext fun a => Fin.ext (by
    match a with | ⟨0, _⟩ => rfl)
  have e6 : ∀ k : Fin 8192, idx_main_v6 (ix1 p) k = ix2 p k := fun k => funext fun a => Fin.ext (by
    match a with | ⟨0, _⟩ => rfl | ⟨1, _⟩ => rfl)
  rw [val_main_v12_apply, val_main_v11_apply, val_main_v5_apply, val_main_v10_apply, val_main_v9_apply, val_main_v7_apply,
    val_main_v6_apply, val_main_v8_apply, val_main_cst_0_apply, val_main_call0_v0_apply, val_main_call0_cst_apply,
    val_main_cst_apply]
  simp only [e5l, e5r, val_main_v4_apply, val_main_v1_apply, val_main_v3_apply, val_main_v2_apply, val_main_v0_apply,
    e1l, e1r, e0, e3, e2, e10, e7, e6, Ideal.ofBits_def, Ideal.addf_def, Ideal.maximumf_def, Ideal.hostDivf_def,
    Ideal.ofBits_zero_f32, zero_add]
  unfold layerProjFirst
  simp only [Ideal.ofBits_zero_f32]

end Cert.ReferenceIdeal.Layer

end
-- ==== Proof.SageFinite.lean ====
/-
  The precondition, read back: every entry of every input is a real number.

  The precondition is the conjunction, over the four inputs, of "all entries x satisfy |x| < +∞", each printed as
  a reduction by `and` of the entrywise comparison. If the conjunction is 1 then each reduction is 1, so each
  comparison is 1 at every entry; and an extended real whose absolute value max(x, −x) lies strictly below +∞ is
  neither +∞ nor −∞ (at either of them max(x, −x) = +∞), hence a real number.
-/
import proofs.«118977_g43241730737058_cont_9to1c4_547_6_alg».proof.Pre_finite_inputs
import Idealize.ShloMosaic.Lib.ReduceAll
import Idealize.ShloMosaic.Lib.ValueIdx
import Idealize.ShloMosaic.PureOps.Ideal

noncomputable section

open Idealize.ShloMosaic

namespace Cert.Sage.Finite

open Cert.Pre_finite_inputs

instance : Subsingleton S_.Idx := ⟨fun a b => funext fun d => d.elim0⟩

/-- The float pattern of +∞ denotes ⊤. -/
theorem inf_word : Ideal.ofBits .f32 0x7F800000#32 = (⊤ : EReal) := by simp [Ideal.ofBits, Ideal.ieee]

/-- |x| < +∞ makes x a real number. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec
  · exfalso; revert h; simp [Ideal.cmp]
  · exact ⟨_, rfl⟩
  · exfalso; revert h; simp [Ideal.cmp]

/-- Under the precondition every entry of the four inputs is real. -/
theorem real_of_pre [Facts] (a0 : FVec Ideal S8192x128 .f32) (a1 : FVec Ideal S8192x8192 .f32)
    (a2 : FVec Ideal S128x128 .f32) (a3 : FVec Ideal S128 .f32)
    (h : fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨hh0, hh1⟩ := IntOp.andi_eq_one.1 h01
  exact ⟨fun i => real_of_abs_lt_inf _ (Host.reduce_andi_all _ _ _ _ _ hh0 i),
    fun i => real_of_abs_lt_inf _ (Host.reduce_andi_all _ _ _ _ _ hh1 i),
    fun i => real_of_abs_lt_inf _ (Host.reduce_andi_all _ _ _ _ _ h2 i),
    fun i => real_of_abs_lt_inf _ (Host.reduce_andi_all _ _ _ _ _ h3 i)⟩

end Cert.Sage.Finite

end
-- ==== Proof.lean ====
/-
  A graph-aggregation layer with a dense adjacency matrix, computed two ways, is one function of its inputs.

  Inputs: features X (8192 × 128), adjacency weights A (8192 × 8192), a weight matrix W (128 × 128) and a bias b (128).
  The reference projects every node, H = X·Wᵀ + b, aggregates, A·H, divides row i by (∑_J A(i,J)) + ε and clamps below
  at 0. The kernel makes a single pass over A in 16 × 4 blocks of 512 × 2048: for each block of 512 rows it accumulates
  A·X and the row sums of A across the four column blocks, and at the last of them forms
  ((A·X)·Wᵀ + rowsum · b) / (rowsum + ε), clamped below at 0.

  Frames. The kernel's two printings terminate without fault and leave the inputs unchanged by their generated frame
  certificates; the reference by its generated run.
  Idealization. The ideal pass rewrote nothing, so there is nothing to preserve.
  Values, over the extended reals. The kernel's result array ends holding the aggregate-first formula of the launched
  arrays: the two carried buffers hold the running sums over the column blocks, after the fourth block these are the full
  sums over all 8192 columns, and the sixteen written blocks tile the result. The reference's result, read operation by
  operation, is the project-first formula. The two formulas share the denominator and the outer maximum, and their
  numerators  ∑_d (∑_J A(i,J)·X(J,d))·W(o,d) + (∑_J A(i,J))·b(o)  and  ∑_J A(i,J)·(∑_d X(J,d)·W(o,d) + b(o))  are equal
  by distributivity and exchange of the two finite sums. Distributivity fails at the infinities of the extended reals, and
  this is where the precondition is used: every input entry is finite, hence a real number.
-/
import proofs.«118977_g43241730737058_cont_9to1c4_547_6_alg».proof.Defs
import proofs.«118977_g43241730737058_cont_9to1c4_547_6_alg».proof.Proof.Gen.Kernel
import proofs.«118977_g43241730737058_cont_9to1c4_547_6_alg».proof.Proof.Gen.Kernel.Skeleton
import proofs.«118977_g43241730737058_cont_9to1c4_547_6_alg».proof.Proof.Gen.Kernel.Launch
import proofs.«118977_g43241730737058_cont_9to1c4_547_6_alg».proof.Proof.Gen.Kernel.Points
import proofs.«118977_g43241730737058_cont_9to1c4_547_6_alg».proof.Proof.Gen.Kernel.Frame
import proofs.«118977_g43241730737058_cont_9to1c4_547_6_alg».proof.Proof.Gen.KernelIdeal
import proofs.«118977_g43241730737058_cont_9to1c4_547_6_alg».proof.Proof.Gen.KernelIdeal.Skeleton
import proofs.«118977_g43241730737058_cont_9to1c4_547_6_alg».proof.Proof.Gen.KernelIdeal.Launch
import proofs.«118977_g43241730737058_cont_9to1c4_547_6_alg».proof.Proof.Gen.KernelIdeal.Points
import proofs.«118977_g43241730737058_cont_9to1c4_547_6_alg».proof.Proof.Gen.KernelIdeal.Frame
import proofs.«118977_g43241730737058_cont_9to1c4_547_6_alg».proof.Proof.Gen.ReferenceIdeal
import proofs.«118977_g43241730737058_cont_9to1c4_547_6_alg».proof.Proof.Gen.Pre_finite_inputs
import proofs.«118977_g43241730737058_cont_9to1c4_547_6_alg».proof.Proof.Gen.KernelIdeal.Value
import proofs.«118977_g43241730737058_cont_9to1c4_547_6_alg».proof.Proof.Gen.ReferenceIdeal.Run
import proofs.«118977_g43241730737058_cont_9to1c4_547_6_alg».proof.Proof.Gen.ReferenceIdeal.Read
import proofs.«118977_g43241730737058_cont_9to1c4_547_6_alg».proof.Proof.SageKernelValue
import proofs.«118977_g43241730737058_cont_9to1c4_547_6_alg».proof.Proof.SageReference
import proofs.«118977_g43241730737058_cont_9to1c4_547_6_alg».proof.Proof.SageFinite
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer of the same arrays, the kernel in the aggregate-first arrangement and the
    reference in the project-first one; on finite inputs these are equal entry by entry. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2.1, (hagree c).2.2.1, (hagree c).2.2.2]
  obtain ⟨hx, ha, hw, hb⟩ := Cert.Sage.Finite.real_of_pre _ _ _ _ (hpre c)
  funext i
  obtain ⟨p, o, rfl⟩ : ∃ (p : Fin 8192) (o : Fin 128), i = ix2 p o := ⟨i 0, i 1, eq_ix2 i⟩
  rw [Cert.ReferenceIdeal.Layer.ref_entry]
  exact (Cert.Sage.layer_forms_eq _ _ _ _ _ _ (fun a b => ha (ix2 a b)) (fun a b => hx (ix2 a b))
    (fun a b => hw (ix2 a b)) (fun a => hb (ix1 a)) p o).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
